-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S4000x64 : Shape := ⟨2, ![4000, 64]⟩
abbrev S1x64 : Shape := ⟨2, ![1, 64]⟩

abbrev nBuf : Space → Nat
  | .hbm => 67
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S64x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S4000x64, .f32⟩
  | .local _ .vmem, ⟨4, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![425], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  transposes_S64x64_S64x64_1_0 : S64x64.Transposes [1, 0] S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  dot_S4000x64_S64x64_S4000x64_1_0_0_1_n_n_wf : DotDims.WF S4000x64 S64x64 S4000x64 [1] [0] [0] [1] [] []
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1700000x64.size a
  hwx0_0 : ∀ i : grid0.Coords, EltTy.bits .f32 = 32 ∨ (Rect.block (s := S1700000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S1700000x64.size a
  hwx0_2 : ∀ i : grid0.Coords, EltTy.bits .f32 = 32 ∨ (Rect.block (s := S1700000x64) S4000x64.size (cc0_transform_2 i) (hinb0_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v40) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000, .f32⟩
  | .hbm, ⟨61, _⟩ => ⟨S1700000, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x64, .f32⟩
  | .hbm, ⟨71, _⟩ => ⟨S1700000x1, .f32⟩
  | .hbm, ⟨72, _⟩ => ⟨S1700000x64, .f32⟩
  | .hbm, ⟨73, _⟩ => ⟨S1700000x64, .f32⟩
  | .hbm, ⟨74, _⟩ => ⟨S_, .f32⟩
  | .hbm, ⟨75, _⟩ => ⟨S100000x64, .f32⟩
  | .hbm, ⟨76, _⟩ => ⟨S1700000x1, .i32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_c_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The product of a tall matrix by a 64 × 64 matrix, entry by entry, on extended reals.
-/
import Idealize.ShloMosaic.PureOps.Ideal
import Idealize.ShloMosaic.Lib.ValueIdx
import Mathlib.Algebra.BigOperators.Group.Finset.Basic

noncomputable section

open scoped BigOperators

namespace Cert.Spec

open Idealize.ShloMosaic Idealize.ShloMosaic.ValueIdx

/-- Entry `(e, j)` of `M · T`: the sum over `k` of `M[e, k] · T[k, j]`. -/
def prod {R : Nat} (M : (⟨2, ![R, 64]⟩ : Shape).Idx → EReal) (T : (⟨2, ![64, 64]⟩ : Shape).Idx → EReal) :
    (⟨2, ![R, 64]⟩ : Shape).Idx → EReal :=
  fun i => ∑ k : Fin 64, M (ix2 (i 0) k) * T (ix2 k (i 1))

theorem prod_apply {R : Nat} (M : (⟨2, ![R, 64]⟩ : Shape).Idx → EReal) (T : (⟨2, ![64, 64]⟩ : Shape).Idx → EReal)
    (e : Fin R) (j : Fin 64) :
    prod M T (ix2 e j) = ∑ k : Fin 64, M (ix2 e k) * T (ix2 k j) := rfl

end Cert.Spec

end
-- ==== Proof.KernelBlocks.lean ====
/-
  From the blocks the pipeline writes back to the whole output array: after the run the region's output
  array is the product of the message matrix by the transposed weights, entry by entry.
-/
import proofs.«178985_j66340064854627_1_alg».proof.Proof.Gen.KernelIdeal.Frame
import proofs.«178985_j66340064854627_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ)

/-! ## The block product, entry by entry -/

/-- The left operand of the block product is read at the output's row … -/
theorem lhs_row (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- … and at the contraction index as its column. -/
theorem lhs_col (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- The right operand is read at the contraction index as its row … -/
theorem rhs_row (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- … and at the output's column. -/
theorem rhs_col (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry `(p, q)` of what the body computes from a block of 4000 rows `x0` and the 64 × 64 matrix `x1`: the casts
    change nothing on extended reals and the accumulator starts at zero, so it is the sum over `k` of
    `x0[p, k] · x1[k, q]`. -/
theorem pay_apply (x0 : Vec Ideal S4000x64 .f32) (x1 : Vec Ideal S64x64 .f32) (p : Fin 4000) (q : Fin 64) :
    k0_pay1 (F := Ideal) x0 x1 (ix2 p q) = ∑ k : Fin 64, x0 (ix2 p k) * x1 (ix2 k q) := by
  unfold k0_pay1
  show FloatOps.matmul dot_S4000x64_S64x64_S4000x64_1_0_0_1_n_n none
      (truncf (F := Ideal) .bf16 (shapeCast S4000x64 x0 shapeCasts_S4000x64_S4000x64 : FVec Ideal S4000x64 .f32) bitsLt_bf16_f32)
      (truncf (F := Ideal) .bf16 (shapeCast S64x64 x1 shapeCasts_S64x64_S64x64 : FVec Ideal S64x64 .f32) bitsLt_bf16_f32)
      (constant (F := Ideal) S4000x64 .f32 0x00000000#32) (ix2 p q) = _
  rw [Ideal.matmul_constant_zero_apply, shapeCast_self, shapeCast_self,
    ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhs_row _ _
    | ⟨1, _⟩ => exact (lhs_col _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (rhs_row _ _).trans hk
    | ⟨1, _⟩ => exact rhs_col _ _)
  rw [el, er]
  rfl

/-- The same at any index of the block. -/
theorem pay_at (x0 : Vec Ideal S4000x64 .f32) (x1 : Vec Ideal S64x64 .f32) (j : S4000x64.Idx) :
    k0_pay1 (F := Ideal) x0 x1 j = ∑ k : Fin 64, x0 (ix2 (j 0) k) * x1 (ix2 k (j 1)) :=
  (congrArg (k0_pay1 (F := Ideal) x0 x1) (eq_ix2 j)).trans (pay_apply x0 x1 (j 0) (j 1))

/-- A block of the product: when row `j 0` of the block `x0` is row `i 0` of `X` and column `j 1` of `x1` is column
    `i 1` of `T`, entry `j` of the block product is entry `i` of `X · T`. -/
theorem blk_entry (X : FVec Ideal S1700000x64 .f32) (T : FVec Ideal S64x64 .f32)
    (x0 : Vec Ideal S4000x64 .f32) (x1 : Vec Ideal S64x64 .f32) (j : S4000x64.Idx) (i : S1700000x64.Idx)
    (h0 : ∀ k : Fin 64, x0 (ix2 (j 0) k) = X (ix2 (i 0) k))
    (h1 : ∀ k : Fin 64, x1 (ix2 k (j 1)) = T (ix2 k (i 1))) :
    k0_pay1 (F := Ideal) x0 x1 j = Cert.Spec.prod X T i := by
  rw [pay_at]
  show _ = ∑ k : Fin 64, X (ix2 (i 0) k) * T (ix2 k (i 1))
  exact Finset.sum_congr rfl fun k _ => by rw [h0 k, h1 k]

/-! ## The arrays the region finds, and where each block sits -/

/-- The message matrix as the region finds it. -/
abbrev msgsArr (c : Dev nD) : FVec Ideal S1700000x64 .f32 := V m c main_v40
/-- The transposed weights as the region finds them. -/
abbrev wtArr (c : Dev nD) : FVec Ideal S64x64 .f32 := V m c main_v41

theorem zero_offsets : (![0, 0] : Fin 2 → Nat) = fun _ => 0 := funext fun a => by fin_cases a <;> rfl

/-- The printed index maps, decided over the 425 points: at point `t` the message block and the output block are block
    `t` of their rows and the only block of their columns; the weights are one block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of the product. -/
theorem flushed_eq (c : Dev nD) (t : Fin cfg0.N) :
    (dats (F := Ideal) m 0 c).flushed 2 t
      = ((cfg0.win 2).blk t).view.read (Elt Ideal) (Cert.Spec.prod (msgsArr m c) (wtArr m c)) := by
  show (cfg0.win 2).cut (grid0.coords t) ((dats (F := Ideal) m 0 c).after 2 t) = _
  rw [after0_2]
  unfold out0_2
  rw [View.canon_unit_zero zero_offsets]
  simp only [View.ld_unit_zero (S := S4000x64) zero_offsets, View.ld_unit_zero (S := S64x64) zero_offsets]
  obtain ⟨e0, e1, e2, e3, e4, e5⟩ := idx_facts t
  refine funext fun (j : S4000x64.Idx) => ?_
  show k0_pay1 (F := Ideal) (iblk m c 0 t) (iblk m c 1 t) j
    = Cert.Spec.prod (msgsArr m c) (wtArr m c) (((cfg0.win 2).blk t).view.emb j)
  refine blk_entry _ _ _ _ j _ (fun k => ?_) (fun k => ?_)
  · show V m c main_v40 (((cfg0.win 0).blk t).view.emb (ix2 (j 0) k))
      = V m c main_v40 (ix2 ((((cfg0.win 2).blk t).view.emb j) 0) k)
    refine congrArg _ (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 64 + 1 * k.val = k.val; omega
  · show V m c main_v41 (((cfg0.win 1).blk t).view.emb (ix2 k (j 1)))
      = V m c main_v41 (ix2 k ((((cfg0.win 2).blk t).view.emb j) 1))
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega

/-- An index of the output array is in point `t`'s block iff each coordinate is in the block's range on its axis. -/
theorem mem_blk (t : Fin cfg0.N) (i : S1700000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v42).slice (win0_2.rect t)).set ↔ _
  rw [View.set_slice_whole, Rect.mem_set_unit]
  exact Iff.rfl

/-- Every entry of the output array is written back by some point: row `e` by point `e / 4000`, since
    425 · 4000 = 1700000. -/
theorem cover (i : S1700000x64.Idx) :
    ∃ t : Fin cfg0.N, (cfg0.win 2).flush t = true ∧ i ∈ ((cfg0.win 2).blk t).view.set := by
  have hi0 : (i 0).val < 1700000 := (i 0).isLt
  have hi1 : (i 1).val < 64 := (i 1).isLt
  have hlt : (i 0).val / 4000 < 425 := by omega
  refine ⟨⟨(i 0).val / 4000, hlt⟩, flush0_2 _, ?_⟩
  obtain ⟨-, -, -, -, e4, e5⟩ := idx_facts ⟨(i 0).val / 4000, hlt⟩
  rw [mem_blk]
  intro a
  match a with
  | ⟨0, _⟩ =>
    show win0_2.index ⟨(i 0).val / 4000, hlt⟩ (0 : Fin 2) * 4000 ≤ (i 0).val
      ∧ (i 0).val < win0_2.index ⟨(i 0).val / 4000, hlt⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, hlt⟩ (1 : Fin 2) * 64 ≤ (i 1).val
      ∧ (i 1).val < win0_2.index ⟨(i 0).val / 4000, hlt⟩ (1 : Fin 2) * 64 + 64
    rw [e5]; omega

/-- THE OUTPUT ARRAY after the run is the product of the message matrix by the transposed weights, entry by entry. -/
theorem final (c : Dev nD) :
    (dats (F := Ideal) m 0 c).arrAt 2 cfg0.N = Cert.Spec.prod (msgsArr m c) (wtArr m c) :=
  (dats (F := Ideal) m 0 c).arrAt_eq_of_cover 2 _ (fun t _ => flushed_eq m c t) cover

end Cert.KernelIdeal.Blocks

end
-- ==== Proof.KernelHost.lean ====
/-
  What the kernel's region finds in its arrays.

  The host operations that run before the region are, one by one, the reference's own: the destination indices, the
  message matrix (rows of the features gathered along the source indices and scaled by the two degree factors) and the
  transposed weights that the region reads are the same functions of the argument arrays as the reference's stages of
  the same names. Stated for any float family, where the two chains of operations are compared as written.
-/
import proofs.«178985_j66340064854627_1_alg».proof.Proof.Gen.KernelIdeal.Frame
import proofs.«178985_j66340064854627_1_alg».proof.Proof.RefRead
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- The destination indices: the second row of the edge list followed by the self loops `0, 1, …`. -/
theorem V_main_v6 (c : Dev nD) :
    (V m c main_v6 : S1700000.Idx → BitVec 32)
      = Cert.ReferenceIdeal.ReadP.val_main_v6 (F := F) (m ((c : Thread nD τ).loc main_arg1)) := by
  dsimp only [V, V0]
  simp only [hostOps0, hostOps0_1, hostOps0_2, List.flatten_cons, List.flatten_nil, List.append_nil, List.cons_append, List.nil_append]
  after_results
  rfl

set_option maxHeartbeats 4000000 in
/-- The message matrix: row `e` is the features' row at `e`'s source, scaled by the degree factors of `e`'s two ends. -/
theorem V_main_v40 (c : Dev nD) :
    (V m c main_v40 : S1700000x64.Idx → F .f32)
      = Cert.ReferenceIdeal.ReadP.val_main_v50 (F := F) (m ((c : Thread nD τ).loc main_arg0)) (m ((c : Thread nD τ).loc main_arg1)) := by
  dsimp only [V, V0]
  simp only [hostOps0, hostOps0_1, hostOps0_2, List.flatten_cons, List.flatten_nil, List.append_nil, List.cons_append, List.nil_append]
  after_results
  rfl

set_option maxHeartbeats 4000000 in
/-- The transposed weights. -/
theorem V_main_v41 (c : Dev nD) :
    (V m c main_v41 : S64x64.Idx → F .f32)
      = Cert.ReferenceIdeal.ReadP.val_main_v54 (F := F) (m ((c : Thread nD τ).loc main_arg2)) := by
  dsimp only [V, V0]
  simp only [hostOps0, hostOps0_1, hostOps0_2, List.flatten_cons, List.flatten_nil, List.append_nil, List.cons_append, List.nil_append]
  after_results
  rfl

end Cert.KernelIdeal.HostSide

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.RealValued.lean ====
/-
  Real-valued arrays of extended reals.

  An array of extended reals is real-valued when no entry is an infinity. Products, sums and finite sums of real
  entries are real, and on real entries multiplication distributes over finite sums, which is what lets a linear
  map be moved across an accumulation.
-/
import Idealize.ShloMosaic.PureOps.Ideal
import Mathlib.Data.EReal.Operations
import Mathlib.Algebra.BigOperators.Group.Finset.Basic

noncomputable section

open scoped BigOperators

namespace Cert.Reals

open Idealize.ShloMosaic

/-- An extended real that is a real number. -/
def IsReal (a : EReal) : Prop := ∃ r : ℝ, a = (r : EReal)

/-- An array all of whose entries are real numbers. -/
def RealValued {s : Shape} (v : s.Idx → EReal) : Prop := ∀ i, IsReal (v i)

theorem isReal_coe (r : ℝ) : IsReal (r : EReal) := ⟨r, rfl⟩

theorem isReal_zero : IsReal 0 := ⟨0, rfl⟩

theorem IsReal.mul {a b : EReal} (ha : IsReal a) (hb : IsReal b) : IsReal (a * b) := by
  obtain ⟨r, rfl⟩ := ha
  obtain ⟨q, rfl⟩ := hb
  exact ⟨r * q, (EReal.coe_mul r q).symm⟩

theorem IsReal.add {a b : EReal} (ha : IsReal a) (hb : IsReal b) : IsReal (a + b) := by
  obtain ⟨r, rfl⟩ := ha
  obtain ⟨q, rfl⟩ := hb
  exact ⟨r + q, (EReal.coe_add r q).symm⟩

/-- The coercion of a finite sum of reals is the sum of the coercions. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem isReal_sum {K : Type*} (s : Finset K) (f : K → EReal) (h : ∀ k ∈ s, IsReal (f k)) :
    IsReal (∑ k ∈ s, f k) := by
  classical
  induction s using Finset.induction_on with
  | empty => simpa using isReal_zero
  | insert a s ha ih =>
    rw [Finset.sum_insert ha]
    exact (h a (Finset.mem_insert_self a s)).add (ih fun k hk => h k (Finset.mem_insert_of_mem hk))

theorem isReal_ite {p : Prop} [Decidable p] {a b : EReal} (ha : IsReal a) (hb : IsReal b) :
    IsReal (if p then a else b) := by
  split
  · exact ha
  · exact hb

end Cert.Reals

end
-- ==== Proof.Linearity.lean ====
/-
  A linear map moved across an accumulation.

  Rows of a matrix `M` are added onto the rows of a zero matrix chosen by an index vector (a scatter-add of rows).
  Multiplying every row by a 64 × 64 matrix `T` first and accumulating afterwards gives the accumulated matrix times
  `T`: entry `(v, j)` is on one side `∑ₑ [I e = v] ∑ₖ M[e, k] · T[k, j]` and on the other
  `∑ₖ (∑ₑ [I e = v] M[e, k]) · T[k, j]`. On the extended reals this exchange of sums needs every entry of `M` and of
  `T` to be a real number, since multiplication does not distribute over a sum of opposite infinities.
-/
import proofs.«178985_j66340064854627_1_alg».proof.Proof.LibIndex
import proofs.«178985_j66340064854627_1_alg».proof.Proof.RealValued
import proofs.«178985_j66340064854627_1_alg».proof.Proof.Spec

noncomputable section

open scoped BigOperators

namespace Cert.Linearity

open Idealize.ShloMosaic Idealize.ShloMosaic.ValueIdx Cert.Reals Cert.LibIndex

/-- The real identity behind it: a sum over selected `e` of `∑ₖ a e k · b k` is `∑ₖ (∑ selected e, a e k) · b k`. -/
theorem sum_select_mul {E K : Type*} [Fintype E] [Fintype K] (p : E → Prop) [DecidablePred p]
    (a : E → K → ℝ) (b : K → ℝ) :
    (∑ e, if p e then ∑ k, a e k * b k else 0) = ∑ k, (∑ e, if p e then a e k else 0) * b k := by
  simp only [Finset.sum_mul]
  rw [Finset.sum_comm]
  refine Finset.sum_congr rfl fun e _ => ?_
  by_cases h : p e
  · simp only [if_pos h]
  · simp only [if_neg h, zero_mul, Finset.sum_const_zero]

/-- A selected real, as an extended real. -/
theorem ite_coe (p : Prop) [Decidable p] (r : ℝ) :
    (if p then (r : EReal) else 0) = ((if p then r else 0 : ℝ) : EReal) := by
  split
  · rfl
  · exact EReal.coe_zero.symm

/-- ROWS ACCUMULATED AFTER THE PRODUCT ARE THE ACCUMULATED ROWS TIMES THE MATRIX, entry by entry, when the rows and the
    matrix hold real numbers and the accumulation starts from zeros. -/
theorem scatter_prod_entry {N R w : Nat} (d : ScatterDims ⟨2, ![N, 64]⟩ ⟨2, ![R, 1]⟩ ⟨2, ![R, 64]⟩)
    (h1 : d.updateWindowDims = [1]) (h2 : d.insertedWindowDims = [0]) (h3 : d.scatterDimsToOperandDims = [0])
    (h4 : d.indexVectorDim = 1)
    (Z : FVec Ideal ⟨2, ![N, 64]⟩ .f32) (hZ : ∀ i, Z i = 0) (I : IVec ⟨2, ![R, 1]⟩ w)
    (M : FVec Ideal ⟨2, ![R, 64]⟩ .f32) (T : FVec Ideal ⟨2, ![64, 64]⟩ .f32)
    (hM : RealValued M) (hT : RealValued T) (v : Fin N) (j : Fin 64) :
    Host.scatterAdd (F := Ideal) d Z I (Cert.Spec.prod M T) (ix2 v j)
      = ∑ k : Fin 64, Host.scatterAdd (F := Ideal) d Z I M (ix2 v k) * T (ix2 k j) := by
  have hM' : ∀ i, ∃ r : ℝ, M i = (r : EReal) := hM
  have hT' : ∀ i, ∃ r : ℝ, T i = (r : EReal) := hT
  choose A hA using hM'
  choose B hB using hT'
  simp only [scatterAdd_row_apply_of d h1 h2 h3 h4, hZ, zero_add, Cert.Spec.prod_apply, hA, hB]
  have hL : (∑ e : Fin R, if (I (ix2 e (0 : Fin 1))).toInt = (v.val : Int)
        then ∑ k : Fin 64, ((A (ix2 e k) : ℝ) : EReal) * ((B (ix2 k j) : ℝ) : EReal) else 0)
      = ((∑ e : Fin R, if (I (ix2 e (0 : Fin 1))).toInt = (v.val : Int)
        then ∑ k : Fin 64, A (ix2 e k) * B (ix2 k j) else 0 : ℝ) : EReal) := by
    rw [coe_sum]
    refine Finset.sum_congr rfl fun e _ => ?_
    rw [← ite_coe, coe_sum]
    simp only [EReal.coe_mul]
  have hR : (∑ k : Fin 64, (∑ e : Fin R, if (I (ix2 e (0 : Fin 1))).toInt = (v.val : Int)
        then ((A (ix2 e k) : ℝ) : EReal) else 0) * ((B (ix2 k j) : ℝ) : EReal))
      = ((∑ k : Fin 64, (∑ e : Fin R, if (I (ix2 e (0 : Fin 1))).toInt = (v.val : Int)
        then A (ix2 e k) else 0) * B (ix2 k j) : ℝ) : EReal) := by
    rw [coe_sum]
    refine Finset.sum_congr rfl fun k _ => ?_
    rw [EReal.coe_mul, coe_sum]
    simp only [ite_coe]
  rw [hL, hR]
  exact congrArg _ (sum_select_mul _ _ _)

end Cert.Linearity

end
-- ==== Proof.Bridge.lean ====
/-
  The kernel's function of the arguments is the reference's.

  With `msgs` the message matrix, `dst` the destination indices and `Wᵀ` the transposed weights (the reference's
  stages of those names), the kernel ends at `accumulate dst (msgs · Wᵀ) + b` and the reference at
  `(accumulate dst msgs) · Wᵀ + b`. Entry by entry these are one extended real when `msgs` and `Wᵀ` hold real
  numbers: the linear map moves across the accumulation.
-/
import proofs.«178985_j66340064854627_1_alg».proof.Proof.RefRead
import proofs.«178985_j66340064854627_1_alg».proof.Proof.Linearity

noncomputable section

open scoped BigOperators

namespace Cert.Bridge

open Cert.ReferenceIdeal Cert.ReferenceIdeal.ReadP Idealize.ShloMosaic Idealize.ShloMosaic.ValueIdx Cert.Reals

/-- The reference's stages that both programs share, at their literal types: the zero matrix the accumulation starts
    from, the destination indices, the message matrix, the transposed weights, the bias along every row. -/
abbrev zeros : FVec Ideal S100000x64 .f32 := val_main_v51 (F := Ideal)
abbrev dstIdx (x1 : IVec S2x1600000 32) : IVec S1700000x1 32 := val_main_v52 (F := Ideal) x1
abbrev msgs (x0 : FVec Ideal S100000x64 .f32) (x1 : IVec S2x1600000 32) : FVec Ideal S1700000x64 .f32 :=
  val_main_v50 (F := Ideal) x0 x1
abbrev wT (x2 : FVec Ideal S64x64 .f32) : FVec Ideal S64x64 .f32 := val_main_v54 (F := Ideal) x2
abbrev biasRows (x3 : FVec Ideal S64 .f32) : FVec Ideal S100000x64 .f32 := val_main_v57 (F := Ideal) x3

/-- The rows of a matrix `P` accumulated onto their destinations, plus the bias along every row: what both programs do
    last, for any float family. -/
def accumulateBias {F : FTy → Type} [FloatOps F] (P : FVec F S1700000x64 .f32) (x1 : IVec S2x1600000 32)
    (x3 : FVec F S64 .f32) : FVec F S100000x64 .f32 :=
  addf (Host.scatterAdd (F := F) (φ := .f32) scatter_S100000x64_S1700000x1_S1700000x64_1_0_0_1 (val_main_v51 (F := F))
      (val_main_v52 (F := F) x1) P)
    (val_main_v57 (F := F) x3)

/-- What the kernel computes, as a function of the four argument arrays: the rows of `msgs · Wᵀ` accumulated onto
    their destinations, plus the bias along every row. -/
def kernelValue (x0 : FVec Ideal S100000x64 .f32) (x1 : IVec S2x1600000 32) (x2 : FVec Ideal S64x64 .f32)
    (x3 : FVec Ideal S64 .f32) : FVec Ideal S100000x64 .f32 :=
  accumulateBias (F := Ideal) (Cert.Spec.prod (msgs x0 x1) (wT x2)) x1 x3

/-- The accumulation starts from zeros. -/
theorem zeros_apply (i : S100000x64.Idx) : zeros i = 0 := by
  show val_main_v51 (F := Ideal) i = 0
  rw [val_main_v51_apply, val_main_cst_13_apply]
  exact Ideal.ofBits_zero_f32

/-- The left factor of the reference's product at `(v, j)`, `k`: entry `(v, k)`. -/
theorem lidx_eq (v : Fin 100000) (j k : Fin 64) : lidx_main_v55 (ix2 v j) k = ix2 v k :=
  funext fun a => Fin.ext (by
    match a with
    | ⟨0, _⟩ => rfl
    | ⟨1, _⟩ => rfl)

/-- The right factor: entry `(k, j)`. -/
theorem ridx_eq (v : Fin 100000) (j k : Fin 64) : ridx_main_v55 (ix2 v j) k = ix2 k j :=
  funext fun a => Fin.ext (by
    match a with
    | ⟨0, _⟩ => rfl
    | ⟨1, _⟩ => rfl)

/-- The kernel's value at an entry: the accumulated product's entry plus the bias's. -/
theorem kernelValue_apply (x0 : FVec Ideal S100000x64 .f32) (x1 : IVec S2x1600000 32) (x2 : FVec Ideal S64x64 .f32)
    (x3 : FVec Ideal S64 .f32) (i : S100000x64.Idx) :
    kernelValue x0 x1 x2 x3 i
      = Host.scatterAdd (F := Ideal) (φ := .f32) scatter_S100000x64_S1700000x1_S1700000x64_1_0_0_1 zeros (dstIdx x1)
            (Cert.Spec.prod (msgs x0 x1) (wT x2)) i
          + biasRows x3 i := by
  unfold kernelValue accumulateBias
  rw [addf_apply]

/-- The linear map moved across the accumulation, at the reference's stages. -/
theorem accumulate_prod (x0 : FVec Ideal S100000x64 .f32) (x1 : IVec S2x1600000 32) (x2 : FVec Ideal S64x64 .f32)
    (hM : RealValued (msgs x0 x1)) (hT : RealValued (wT x2)) (v : Fin 100000) (j : Fin 64) :
    Host.scatterAdd (F := Ideal) (φ := .f32) scatter_S100000x64_S1700000x1_S1700000x64_1_0_0_1 zeros (dstIdx x1)
        (Cert.Spec.prod (msgs x0 x1) (wT x2)) (ix2 v j)
      = ∑ k : Fin 64, Host.scatterAdd (F := Ideal) (φ := .f32) scatter_S100000x64_S1700000x1_S1700000x64_1_0_0_1
          zeros (dstIdx x1) (msgs x0 x1) (ix2 v k) * wT x2 (ix2 k j) :=
  Cert.Linearity.scatter_prod_entry scatter_S100000x64_S1700000x1_S1700000x64_1_0_0_1 rfl rfl rfl rfl
    zeros zeros_apply (dstIdx x1) (msgs x0 x1) (wT x2) hM hT v j

/-- The accumulated message matrix is the reference's stage of that name. -/
theorem accumulated_eq (x0 : FVec Ideal S100000x64 .f32) (x1 : IVec S2x1600000 32) :
    val_main_v53 (F := Ideal) x0 x1
      = Host.scatterAdd (F := Ideal) (φ := .f32) scatter_S100000x64_S1700000x1_S1700000x64_1_0_0_1 zeros (dstIdx x1)
          (msgs x0 x1) := by
  unfold val_main_v53
  with_reducible rfl

/-- The reference's value at an entry, over the shared stages. -/
theorem reference_apply (x0 : FVec Ideal S100000x64 .f32) (x1 : IVec S2x1600000 32) (x2 : FVec Ideal S64x64 .f32)
    (x3 : FVec Ideal S64 .f32) (v : Fin 100000) (j : Fin 64) :
    val_main_v58 (F := Ideal) x0 x1 x2 x3 (ix2 v j)
      = (∑ k : Fin 64, Host.scatterAdd (F := Ideal) (φ := .f32) scatter_S100000x64_S1700000x1_S1700000x64_1_0_0_1
            zeros (dstIdx x1) (msgs x0 x1) (ix2 v k) * wT x2 (ix2 k j))
          + biasRows x3 (ix2 v j) := by
  rw [val_main_v58_apply, Ideal.addf_def, val_main_v55_apply, accumulated_eq]
  simp only [lidx_eq, ridx_eq]

/-- THE KERNEL'S VALUE IS THE REFERENCE'S, when the message matrix and the transposed weights hold real numbers. -/
theorem kernelValue_eq (x0 : FVec Ideal S100000x64 .f32) (x1 : IVec S2x1600000 32) (x2 : FVec Ideal S64x64 .f32)
    (x3 : FVec Ideal S64 .f32) (hM : RealValued (val_main_v50 (F := Ideal) x0 x1))
    (hT : RealValued (val_main_v54 (F := Ideal) x2)) :
    kernelValue x0 x1 x2 x3 = val_main_v58 (F := Ideal) x0 x1 x2 x3 := by
  funext i
  obtain ⟨v, j, rfl⟩ : ∃ (v : Fin 100000) (j : Fin 64), i = ix2 v j := ⟨i 0, i 1, eq_ix2 i⟩
  rw [kernelValue_apply, reference_apply, accumulate_prod x0 x1 x2 hM hT v j]

end Cert.Bridge

end
-- ==== Proof.KernelRun.lean ====
/-
  The kernel's run, with its result named.

  After the region the output array holds the product `msgs · Wᵀ` (taken here as a hypothesis on the region's proof
  data, proved block by block elsewhere); the host operations that follow accumulate its rows onto their destinations
  and add the bias. So every run of the kernel ends with its result at the function `kernelValue` of the argument
  arrays, the arguments unchanged.
-/
import proofs.«178985_j66340064854627_1_alg».proof.Proof.KernelHost
import proofs.«178985_j66340064854627_1_alg».proof.Proof.Bridge

set_option maxRecDepth 16384

noncomputable section

namespace Cert.KernelIdeal.RunValue

open Cert.KernelIdeal Cert.KernelIdeal.Gen Idealize.ShloMosaic Idealize.ShloMosaic.TcCoe Idealize.SL.Sem Idealize.ShloMosaic.StableHlo

section Tail
variable {F : FTy → Type} [FloatOps F]
variable (m : (ℓ : Loc nD τ sig) → Buf (Elt F) ℓ)

set_option maxHeartbeats 4000000 in
/-- The result buffer after the host operations that follow the region: the rows of whatever the region left in its
    output array, accumulated onto their destinations, plus the bias. For any float family. -/
theorem tail_value (c : Dev nD) :
    (Pipeline.afterTail₀ cfgs (dats m) 0 (V0 m) [hostOps1] c main_v48 : S100000x64.Idx → F .f32)
      = Cert.Bridge.accumulateBias ((dats m 0 c).arrAt 2 cfg0.N : S1700000x64.Idx → F .f32)
          (m ((c : Thread nD τ).loc main_arg1)) (m ((c : Thread nD τ).loc main_arg3)) := by
  have e42 : Pipeline.withArrays (cfgs 0).spec c (V0 m c) (fun w => (dats m 0 c).arrAt w (cfgs 0).N)
      (Proc.devRef .tc main_v42) = (dats m 0 c).arrAt 2 cfg0.N :=
    Pipeline.withArrays_arr spec0 launch0.win.arr_inj c (V0 m c) (fun w => (dats m 0 c).arrAt w (cfgs 0).N) 2
  have e6 : Pipeline.withArrays (cfgs 0).spec c (V0 m c) (fun w => (dats m 0 c).arrAt w (cfgs 0).N)
      (Proc.devRef .tc main_v6) = V m c main_v6 :=
    Pipeline.withArrays_of_ne _ c (V0 m c) _ main_v6 (by exact (by decide : ∀ w, Pipeline.arrRef spec0 w ≠ main_v6))
  have e3 : Pipeline.withArrays (cfgs 0).spec c (V0 m c) (fun w => (dats m 0 c).arrAt w (cfgs 0).N)
      (Proc.devRef .tc main_arg3) = V m c main_arg3 :=
    Pipeline.withArrays_of_ne _ c (V0 m c) _ main_arg3 (by exact (by decide : ∀ w, Pipeline.arrRef spec0 w ≠ main_arg3))
  unfold Pipeline.afterTail₀
  show StableHlo.after hostOps1 _ (Proc.devRef .tc main_v48) = _
  after_results
  rw [e42, e6, e3, HostSide.V_main_v6 m c, V_main_arg3 m c]
  rfl

end Tail

variable (m : (ℓ : Loc nD τ sig) → Buf (Elt Ideal) ℓ) (ρ : Dev nD → PrngReg)

/-- With the product in the region's output, the accumulated rows plus the bias are the kernel's value. -/
theorem accumulate_final (c : Dev nD)
    (hfinal : ((dats (F := Ideal) m 0 c).arrAt 2 cfg0.N : S1700000x64.Idx → EReal)
      = Cert.Spec.prod (V m c main_v40 : S1700000x64.Idx → EReal) (V m c main_v41 : S64x64.Idx → EReal)) :
    Cert.Bridge.accumulateBias (F := Ideal) ((dats (F := Ideal) m 0 c).arrAt 2 cfg0.N : S1700000x64.Idx → EReal)
        (m ((c : Thread nD τ).loc main_arg1)) (m ((c : Thread nD τ).loc main_arg3))
      = Cert.Bridge.kernelValue (m ((c : Thread nD τ).loc main_arg0)) (m ((c : Thread nD τ).loc main_arg1))
          (m ((c : Thread nD τ).loc main_arg2)) (m ((c : Thread nD τ).loc main_arg3)) := by
  rw [hfinal, HostSide.V_main_v40 m c, HostSide.V_main_v41 m c]
  unfold Cert.Bridge.kernelValue
  with_reducible rfl

/-- THE KERNEL'S RUN: every weakly fair execution ends with the result at `kernelValue` of the arguments and the
    arguments as they were. -/
theorem run_value
    (hfinal : ∀ c : Dev nD, ((dats (F := Ideal) m 0 c).arrAt 2 cfg0.N : S1700000x64.Idx → EReal)
      = Cert.Spec.prod (V m c main_v40 : S1700000x64.Idx → EReal) (V m c main_v41 : S64x64.Idx → EReal)) :
    θ_run (defs (F := Ideal)) (onTc (τ := τ) (main (F := Ideal))) ⟨m, fun _ => 0, ρ⟩ (fun r => ∀ c : Dev nD,
      r.2.mem ((c.tc : Thread nD τ).loc main_v48)
        = Cert.Bridge.kernelValue (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_v48 (Pipeline.mem_restRefs_of main_v48 (by decide) (by decide))).trans (tail_value m c)).trans
        (accumulate_final m c (hfinal c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.MsgsFinite.lean ====
/-
  The message matrix and the transposed weights are real-valued.

  Every stage that feeds the message matrix is built from real constants, from entries of the real-valued input, and
  from sums, products, real powers and selections of real numbers; none of these leaves the reals. Each operation's
  closure is stated once, for arbitrary shapes, and the stages are then chained.
-/
import proofs.«178985_j66340064854627_1_alg».proof.Proof.RefRead
import proofs.«178985_j66340064854627_1_alg».proof.Proof.RealValued
import Idealize.ShloMosaic.PureOps.Ideal
import Idealize.ShloMosaic.PureOps.Ideal.Laws

noncomputable section

open scoped BigOperators

namespace Cert.ReferenceIdeal.Finite

open Cert.ReferenceIdeal Cert.ReferenceIdeal.ReadP Cert.Reals Idealize.ShloMosaic

/-! ## Constants -/

/-- The word 0x3F800000 denotes a real number (it is 1). -/
theorem isReal_word_one : IsReal (Ideal.ofBits .f32 0x3F800000#32) := by
  simp only [Ideal.ofBits, Ideal.ieee]
  rw [if_neg (by decide), if_neg (by decide)]
  exact ⟨_, rfl⟩

/-- The word 0xBF000000 denotes a real number (it is -1/2). -/
theorem isReal_word_neg_half : IsReal (Ideal.ofBits .f32 0xBF000000#32) := by
  simp only [Ideal.ofBits, Ideal.ieee]
  rw [if_neg (by decide), if_neg (by decide)]
  exact ⟨_, rfl⟩

/-- The word 0x00000000 denotes the real number 0. -/
theorem isReal_word_zero : IsReal (Ideal.ofBits .f32 0x00000000#32) := by
  rw [Ideal.ofBits_zero_f32]; exact isReal_zero

/-! ## Closure of each operation, for arbitrary shapes -/

section generic

variable {s t si su : Shape} {w : Nat}

/-- A power of two reals is a real. -/
theorem isReal_pow {a b : EReal} (ha : IsReal a) (hb : IsReal b) : IsReal (Ideal.pow a b) := by
  obtain ⟨r, rfl⟩ := ha
  obtain ⟨q, rfl⟩ := hb
  exact ⟨Real.rpow r q, rfl⟩

/-- A selection between two reals is a real. -/
theorem isReal_select (c : BitVec 1) {a b : EReal} (ha : IsReal a) (hb : IsReal b) :
    IsReal (Scalar.select c a b) := by
  unfold Scalar.select
  exact isReal_ite ha hb

/-- Every entry of a constant array is the constant. -/
theorem realValued_const {a : EReal} (ha : IsReal a) : RealValued (s := s) (fun _ => a) := fun _ => ha

/-- Every entry of a broadcast is an entry of its operand. -/
theorem realValued_broadcastInDim (dims : Fin s.rank → Fin t.rank) (h : s.BroadcastsInDim t dims)
    (x : s.Idx → EReal) (hx : RealValued x) : RealValued (broadcastInDim t dims h x) := fun _ => hx _

/-- Every entry of a gather is an entry of its operand. -/
theorem realValued_gather (d : GatherDims s si t) (x : s.Idx → EReal) (idx : IVec si w) (hx : RealValued x) :
    RealValued (Host.gather d x idx) := fun _ => hx _

/-- Every entry of a transpose is an entry of its operand. -/
theorem realValued_transpose (perm : List (Fin s.rank)) (x : s.Idx → EReal) (h : s.Transposes perm t)
    (hx : RealValued x) : RealValued (transpose t perm x h) := fun _ => hx _

/-- An entrywise product of real-valued arrays is real-valued. -/
theorem realValued_mulf (x y : FVec Ideal s .f32) (hx : RealValued x) (hy : RealValued y) :
    RealValued (mulf x y) := fun i => (hx i).mul (hy i)

/-- An entrywise power of real-valued arrays is real-valued. -/
theorem realValued_powf (x y : FVec Ideal s .f32) (hx : RealValued x) (hy : RealValued y) :
    RealValued (Host.powf x y) := fun i => isReal_pow (hx i) (hy i)

/-- An entrywise selection between real-valued arrays is real-valued. -/
theorem realValued_select (c : IVec s 1) (x y : s.Idx → EReal) (hx : RealValued x) (hy : RealValued y) :
    RealValued (select c x y) := fun i => isReal_select (c i) (hx i) (hy i)

/-- An accumulation of real-valued updates onto a real-valued array is real-valued: each entry is the operand's
    entry plus a finite sum of update entries. -/
theorem realValued_scatterAdd (d : ScatterDims s si su) (x : FVec Ideal s .f32) (idx : IVec si w)
    (upd : FVec Ideal su .f32) (hx : RealValued x) (hu : RealValued upd) :
    RealValued (Host.scatterAdd d x idx upd) := fun i => by
  show IsReal (Ideal.hostScatterAdd d x idx upd i)
  unfold Ideal.hostScatterAdd
  exact (hx i).add (isReal_sum _ _ fun j _ => hu j)

end generic

/-! ## The stages -/

theorem cst_realValued : RealValued (s := S_) (val_main_cst (F := Ideal)) :=
  realValued_const isReal_word_one

theorem cst_0_realValued : RealValued (s := S_) (val_main_cst_0 (F := Ideal)) :=
  realValued_const isReal_word_zero

theorem cst_6_realValued : RealValued (s := S_) (val_main_cst_6 (F := Ideal)) :=
  realValued_const isReal_word_neg_half

theorem cst_7_realValued : RealValued (s := S_) (val_main_cst_7 (F := Ideal)) :=
  realValued_const isReal_word_zero

theorem v7_realValued : RealValued (s := S1700000) (val_main_v7 (F := Ideal)) :=
  realValued_broadcastInDim _ _ _ cst_realValued

theorem v8_realValued : RealValued (s := S100000) (val_main_v8 (F := Ideal)) :=
  realValued_broadcastInDim _ _ _ cst_0_realValued

/-- The degree vector: zeros plus a finite sum of ones. -/
theorem v10_realValued (x1 : IVec S2x1600000 32) : RealValued (s := S100000) (val_main_v10 (F := Ideal) x1) :=
  realValued_scatterAdd _ _ _ _ v8_realValued v7_realValued

theorem v23_realValued : RealValued (s := S100000) (val_main_v23 (F := Ideal)) :=
  realValued_broadcastInDim _ _ _ cst_6_realValued

theorem v24_realValued (x1 : IVec S2x1600000 32) : RealValued (s := S100000) (val_main_v24 (F := Ideal) x1) :=
  realValued_powf _ _ (v10_realValued x1) v23_realValued

theorem call1_v1_realValued : RealValued (s := S100000) (val_main_call1_v1 (F := Ideal)) :=
  realValued_broadcastInDim _ _ _ cst_7_realValued

theorem v25_realValued (x1 : IVec S2x1600000 32) : RealValued (s := S100000) (val_main_v25 (F := Ideal) x1) :=
  realValued_select _ _ _ (v24_realValued x1) call1_v1_realValued

theorem v32_realValued (x1 : IVec S2x1600000 32) : RealValued (s := S1700000) (val_main_v32 (F := Ideal) x1) :=
  realValued_gather _ _ _ (v25_realValued x1)

theorem v39_realValued (x1 : IVec S2x1600000 32) : RealValued (s := S1700000) (val_main_v39 (F := Ideal) x1) :=
  realValued_gather _ _ _ (v25_realValued x1)

theorem v40_realValued (x1 : IVec S2x1600000 32) : RealValued (s := S1700000) (val_main_v40 (F := Ideal) x1) :=
  realValued_mulf _ _ (v32_realValued x1) (v39_realValued x1)

theorem v48_realValued (x1 : IVec S2x1600000 32) : RealValued (s := S1700000x1) (val_main_v48 (F := Ideal) x1) :=
  realValued_broadcastInDim _ _ _ (v40_realValued x1)

theorem v49_realValued (x1 : IVec S2x1600000 32) : RealValued (s := S1700000x64) (val_main_v49 (F := Ideal) x1) :=
  realValued_broadcastInDim _ _ _ (v48_realValued x1)

theorem v47_realValued (x0 : FVec Ideal S100000x64 .f32) (x1 : IVec S2x1600000 32) (hx : RealValued x0) :
    RealValued (s := S1700000x64) (val_main_v47 (F := Ideal) x0 x1) :=
  realValued_gather _ _ _ hx

theorem msgs_realValued (x0 : FVec Ideal S100000x64 .f32) (x1 : IVec S2x1600000 32) (hx : RealValued x0) :
    RealValued (val_main_v50 (F := Ideal) x0 x1) :=
  realValued_mulf _ _ (v47_realValued x0 x1 hx) (v49_realValued x1)

theorem wt_realValued (x2 : FVec Ideal S64x64 .f32) (h : RealValued x2) :
    RealValued (val_main_v54 (F := Ideal) x2) :=
  realValued_transpose _ _ _ h

end Cert.ReferenceIdeal.Finite

end
-- ==== Proof.PreFinite.lean ====
/-
  From the finiteness precondition to real-valued inputs.

  The precondition states, for each of three float inputs, that every entry has absolute value below plus infinity.
  An extended real with max a (-a) < ⊤ is neither infinity, so it is a real number.
-/
import proofs.«178985_j66340064854627_1_alg».proof.Pre_finite_inputs
import proofs.«178985_j66340064854627_1_alg».proof.Proof.Gen.Pre_finite_inputs
import proofs.«178985_j66340064854627_1_alg».proof.Proof.RealValued
import Idealize.ShloMosaic.Lib.ReduceAll
import Idealize.ShloMosaic.Lib.ValueIdx
import Idealize.ShloMosaic.PureOps.Ideal

noncomputable section

namespace Cert.Pre_finite_inputs.Finite

open Idealize.ShloMosaic Cert.Pre_finite_inputs Cert.Reals

instance : Subsingleton S_.Idx := ⟨fun a b => funext fun d => d.elim0⟩

/-- The word 0x7F800000 denotes plus infinity. -/
theorem ofBits_inf : Ideal.ofBits .f32 0x7F800000#32 = (⊤ : EReal) := by
  simp [Ideal.ofBits, Ideal.ieee]

/-- An extended real whose absolute value is below plus infinity is a real number. -/
theorem isReal_of_abs_lt (a : EReal)
    (h : Ideal.cmp .olt (max a (-a)) (Ideal.ofBits .f32 0x7F800000#32) = 1#1) : IsReal a := by
  rw [ofBits_inf] at h
  induction a using EReal.rec with
  | bot => simp [Ideal.cmp] at h
  | top => simp [Ideal.cmp] at h
  | coe r => exact ⟨r, rfl⟩

theorem realValued_of_pre (x0 : FVec Ideal S100000x64 .f32) (x1 : IVec S2x1600000 32)
    (x2 : FVec Ideal S64x64 .f32) (x3 : FVec Ideal S64 .f32)
    (h : Cert.Pre_finite_inputs.fn (F := Ideal) x0 x1 x2 x3 = fun _ => 1#1) :
    Cert.Reals.RealValued x0 ∧ Cert.Reals.RealValued x2 := by
  have h0 := congrFun h ValueIdx.ix0
  dsimp only [Cert.Pre_finite_inputs.fn, andi] at h0
  obtain ⟨h01, _⟩ := IntOp.andi_eq_one.1 h0
  obtain ⟨ha, hb⟩ := IntOp.andi_eq_one.1 h01
  refine ⟨fun i => ?_, fun i => ?_⟩
  · have e := Host.reduce_andi_all _ _ _ _ _ ha i
    exact isReal_of_abs_lt (x0 i) e
  · have e := Host.reduce_andi_all _ _ _ _ _ hb i
    exact isReal_of_abs_lt (x2 i) e

end Cert.Pre_finite_inputs.Finite

end
-- ==== Proof.lean ====
/-
  A graph layer: messages gathered along edges, scaled by the inverse square roots of the two end degrees,
  accumulated onto their destination nodes, mapped by the weights and shifted by the bias.

  Both programs build the message matrix `msgs` (one row per edge and per self loop: the source node's features times
  `deg[src]^(-1/2) · deg[dst]^(-1/2)`, the degree a count of incoming edges) and the destination indices `dst` by the
  same host operations. The kernel multiplies every row of `msgs` by `Wᵀ` in blocks of 4000 rows and then accumulates
  the rows onto `dst`; the reference accumulates first and multiplies the 100000 accumulated rows by `Wᵀ`. Entry
  `(v, j)` is `∑ₑ [dst e = v] ∑ₖ msgs[e, k] · W[j, k] + b[j]` on one side and
  `∑ₖ (∑ₑ [dst e = v] msgs[e, k]) · W[j, k] + b[j]` on the other: one number, because the entries of `msgs` and `W`
  are real (the features and weights are finite, a degree is a finite count, and a power of a real by a real is
  real), so multiplication distributes over the sums. The casts to the narrower float format inside the kernel are the
  identity on extended reals, and the kernel's block product into a zero accumulator is the plain sum of products.

  The frames of the two kernel programs are the generated ones; the reference's is its run with the result dropped.
-/
import proofs.«178985_j66340064854627_1_alg».proof.Defs
import proofs.«178985_j66340064854627_1_alg».proof.Proof.Gen.Kernel
import proofs.«178985_j66340064854627_1_alg».proof.Proof.Gen.Kernel.Skeleton
import proofs.«178985_j66340064854627_1_alg».proof.Proof.Gen.Kernel.Launch
import proofs.«178985_j66340064854627_1_alg».proof.Proof.Gen.Kernel.Points
import proofs.«178985_j66340064854627_1_alg».proof.Proof.Gen.Kernel.Frame
import proofs.«178985_j66340064854627_1_alg».proof.Proof.Gen.KernelIdeal
import proofs.«178985_j66340064854627_1_alg».proof.Proof.Gen.KernelIdeal.Skeleton
import proofs.«178985_j66340064854627_1_alg».proof.Proof.Gen.KernelIdeal.Launch
import proofs.«178985_j66340064854627_1_alg».proof.Proof.Gen.KernelIdeal.Points
import proofs.«178985_j66340064854627_1_alg».proof.Proof.Gen.KernelIdeal.Frame
import proofs.«178985_j66340064854627_1_alg».proof.Proof.Gen.ReferenceIdeal
import proofs.«178985_j66340064854627_1_alg».proof.Proof.Gen.Pre_finite_inputs
import proofs.«178985_j66340064854627_1_alg».proof.Proof.RefRun
import proofs.«178985_j66340064854627_1_alg».proof.Proof.RefRead
import proofs.«178985_j66340064854627_1_alg».proof.Proof.KernelBlocks
import proofs.«178985_j66340064854627_1_alg».proof.Proof.KernelRun
import proofs.«178985_j66340064854627_1_alg».proof.Proof.MsgsFinite
import proofs.«178985_j66340064854627_1_alg».proof.Proof.PreFinite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both programs end at the reference's function of the arguments: the kernel at `kernelValue`, which is that
    function when the features and the weights are finite. -/
theorem algebraic : Cert.algebraic_KernelIdeal_ReferenceIdeal := by
  intro m ρ m' ρ' hpre hagree
  refine ⟨_, Cert.KernelIdeal.RunValue.run_value m ρ (Cert.KernelIdeal.Blocks.final m), ?_⟩
  refine (θ_run Cert.ReferenceIdeal.defs _ _).mono (fun _ h c => ⟨(h c).1.trans ?_, (h c).2⟩)
    (Cert.ReferenceIdeal.RunP.run (F := Ideal) m' ρ')
  obtain ⟨h0, h2⟩ := Cert.Pre_finite_inputs.Finite.realValued_of_pre _ _ _ _ (hpre c)
  rw [Cert.ReferenceIdeal.ReadP.val_main_v58_eq, (hagree c).1, (hagree c).2.1, (hagree c).2.2.1, (hagree c).2.2.2]
  exact (Cert.Bridge.kernelValue_eq _ _ _ _ (Cert.ReferenceIdeal.Finite.msgs_realValued _ _ h0)
    (Cert.ReferenceIdeal.Finite.wt_realValued _ h2)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
